-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : FVec F S128x128 .f32) (main_arg2 : FVec F S128 .f32) (main_arg3 : FVec F S128x64 .f32) (main_arg4 : FVec F S128x64 .f32) (main_arg5 : FVec F S64 .f32) (main_arg6 : IVec S1600000 32) (main_arg7 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 82
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S128x64, .f32⟩
  | .hbm, ⟨5, _⟩ => ⟨S64, .f32⟩
  | .hbm, ⟨6, _⟩ => ⟨S1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000x1, .f32⟩
  | .hbm, ⟨78, _⟩ => ⟨S100000x128, .f32⟩
  | .hbm, ⟨79, _⟩ => ⟨S100000x128, .f32⟩
  | .hbm, ⟨80, _⟩ => ⟨S1x64, .f32⟩
  | .hbm, ⟨81, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x64, .f32⟩
  | .local _ .vmem, ⟨11, _⟩ => ⟨S128x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_cst_6 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c : Ref sig .tc := ⟨.hbm, 43, rfl⟩
abbrev main_v22 : Ref sig .tc := ⟨.hbm, 44, rfl⟩
abbrev main_v23 : Ref sig .tc := ⟨.hbm, 45, rfl⟩
abbrev main_c_8 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_9 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_10 : Ref sig .tc := ⟨.hbm, 61, rfl⟩
abbrev main_v37 : Ref sig .tc := ⟨.hbm, 62, rfl⟩
abbrev main_v38 : Ref sig .tc := ⟨.hbm, 63, rfl⟩
abbrev main_c_11 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_12 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_13 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v34) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S128x64, .f32⟩
  | .hbm, ⟨5, _⟩ => ⟨S64, .f32⟩
  | .hbm, ⟨6, _⟩ => ⟨S1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x128, .f32⟩
  | .hbm, ⟨84, _⟩ => ⟨S100000x128, .f32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_cst_6 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c : Ref sig .tc := ⟨.hbm, 43, rfl⟩
abbrev main_v22 : Ref sig .tc := ⟨.hbm, 44, rfl⟩
abbrev main_v23 : Ref sig .tc := ⟨.hbm, 45, rfl⟩
abbrev main_c_8 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_9 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call2_cst : Ref sig .tc := ⟨.hbm, 63, rfl⟩
abbrev main_call2_v0 : Ref sig .tc := ⟨.hbm, 64, rfl⟩
abbrev main_v39 : Ref sig .tc := ⟨.hbm, 65, rfl⟩
abbrev main_c_10 : Ref sig .tc := ⟨.hbm, 66, rfl⟩
abbrev main_v40 : Ref sig .tc := ⟨.hbm, 67, rfl⟩
abbrev main_v41 : Ref sig .tc := ⟨.hbm, 68, rfl⟩
abbrev main_c_11 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_13 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.Dense.lean ====
/-
  The arithmetic of the two kernel bodies at one entry of their output block, over the extended reals.
  The first body is a dense layer with a rectifier: entry (p, q) of its block is
  max (∑ k, a (p, k) · w (k, q) + b (0, q)) 0, the sum over the 128 input features.
  The second body adds two dense maps and a bias: entry (p, q) is
  (∑ k, h (p, k) · ws (k, q) + ∑ k, n (p, k) · wn (k, q)) + b (0, q).
  The narrowing of the operands before each product is the identity on the extended reals.
-/
import proofs.«177218_j2456721293643_1_alg».proof.Proof.Gen.KernelIdeal.Skeleton
import proofs.«177218_j2456721293643_1_alg».proof.Proof.LibMatmulPlain
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.Dense

open Cert.KernelIdeal Cert.KernelIdeal.Gen

/-- The printed contraction record of the first body is the plain [5000,128]×[128,128] product. -/
theorem dims1 : dot_S5000x128_S128x128_S5000x128_1_0_0_1_n_n = DotDims.plain 5000 128 128 := rfl

/-- The printed contraction record of the second body is the plain [5000,128]×[128,64] product. -/
theorem dims2 : dot_S5000x128_S128x64_S5000x64_1_0_0_1_n_n = DotDims.plain 5000 128 64 := rfl

/-- Entry (p, q) of the first body's stored block. -/
theorem layer1_apply (a : Vec Ideal S5000x128 .f32) (w : Vec Ideal S128x128 .f32) (b : Vec Ideal S1x128 .f32)
    (p : Fin 5000) (q : Fin 128) :
    k0_pay1 (F := Ideal) a w b (ix2 p q)
      = max ((∑ k : Fin 128, a (ix2 p k) * w (ix2 k q)) + b (ix2 (0 : Fin 1) q)) (Ideal.ofBits .f32 0x00000000#32) := by
  unfold k0_pay1
  rw [maximumf_apply, addf_apply, broadcast_apply, dims1, MatmulPlain.matmul_zero_apply,
    broadcastTo_1b_ab_apply, shapeCast_self, shapeCast_self]
  rfl

/-- Entry (p, q) of the second body's stored block. -/
theorem layer2_apply (h n : Vec Ideal S5000x128 .f32) (ws wn : Vec Ideal S128x64 .f32) (b : Vec Ideal S1x64 .f32)
    (p : Fin 5000) (q : Fin 64) :
    k1_pay1 (F := Ideal) h n ws wn b (ix2 p q)
      = ((∑ k : Fin 128, h (ix2 p k) * ws (ix2 k q)) + (∑ k : Fin 128, n (ix2 p k) * wn (ix2 k q))) + b (ix2 (0 : Fin 1) q) := by
  unfold k1_pay1
  rw [addf_apply, addf_apply, dims2, MatmulPlain.matmul_zero_apply, MatmulPlain.matmul_zero_apply,
    broadcastTo_1b_ab_apply, shapeCast_self, shapeCast_self, shapeCast_self]
  rfl

end Cert.KernelIdeal.Dense

end
-- ==== Proof.Spec.lean ====
/-
  The two dense stages of the network as functions of whole arrays, over the extended reals.
  `hidden A W b` is the rectified dense layer: entry (r, q) is max (∑ k, A (r, k) · W (k, q) + b (0, q)) 0.
  `combine H N Ws Wn b` adds a dense map of the nodes' own features and a dense map of their neighbourhood means and a
  bias: entry (r, q) is (∑ k, H (r, k) · Ws (k, q) + ∑ k, N (r, k) · Wn (k, q)) + b (0, q).
  Both read one row of their first operands per output row, which is why a row-tiled kernel computes them tile by tile.
-/
import Idealize.ShloMosaic.Lib.ValueIdx

noncomputable section

open Idealize.ShloMosaic Idealize.ShloMosaic.ValueIdx

namespace Cert.Spec

/-- Entry (r, q) of the rectified dense layer of the array `A` by the weight `W` and the bias row `b`. -/
def hiddenAt (A : Vec Ideal ⟨2, ![100000, 128]⟩ .f32) (W : Vec Ideal ⟨2, ![128, 128]⟩ .f32) (b : Vec Ideal ⟨2, ![1, 128]⟩ .f32)
    (r : Fin 100000) (q : Fin 128) : Ideal .f32 :=
  max ((∑ k : Fin 128, A (ix2 r k) * W (ix2 k q)) + b (ix2 (0 : Fin 1) q)) (Ideal.ofBits .f32 0x00000000#32)

/-- The rectified dense layer as a whole array. -/
def hidden (A : Vec Ideal ⟨2, ![100000, 128]⟩ .f32) (W : Vec Ideal ⟨2, ![128, 128]⟩ .f32) (b : Vec Ideal ⟨2, ![1, 128]⟩ .f32) :
    Vec Ideal ⟨2, ![100000, 128]⟩ .f32 := fun i => hiddenAt A W b (i 0) (i 1)

/-- Entry (r, q) of the sum of the two dense maps and the bias row. -/
def combineAt (H N : Vec Ideal ⟨2, ![100000, 128]⟩ .f32) (Ws Wn : Vec Ideal ⟨2, ![128, 64]⟩ .f32) (b : Vec Ideal ⟨2, ![1, 64]⟩ .f32)
    (r : Fin 100000) (q : Fin 64) : Ideal .f32 :=
  ((∑ k : Fin 128, H (ix2 r k) * Ws (ix2 k q)) + (∑ k : Fin 128, N (ix2 r k) * Wn (ix2 k q))) + b (ix2 (0 : Fin 1) q)

/-- The sum of the two dense maps and the bias as a whole array. -/
def combine (H N : Vec Ideal ⟨2, ![100000, 128]⟩ .f32) (Ws Wn : Vec Ideal ⟨2, ![128, 64]⟩ .f32) (b : Vec Ideal ⟨2, ![1, 64]⟩ .f32) :
    Vec Ideal ⟨2, ![100000, 64]⟩ .f32 := fun i => combineAt H N Ws Wn b (i 0) (i 1)

end Cert.Spec

end
-- ==== Proof.Layer1.lean ====
/-
  The first pallas_call as one function of the arrays it finds. Its grid has 20 points; point t reads rows
  5000·t … 5000·t + 4999 of the [100000,128] input, the whole [128,128] weight and the whole [1,128] bias, and writes
  back rows 5000·t … 5000·t + 4999 of the result. Entry (r, q) of what a point writes depends on row r of the input only:
  max (∑ k, A (r, k) · W (k, q) + b (0, q)) 0. So every point writes its block of ONE whole-array function, the 20 row
  blocks tile the result, and the result array ends holding that function.
-/
import proofs.«177218_j2456721293643_1_alg».proof.Proof.Gen.KernelIdeal.Frame
import proofs.«177218_j2456721293643_1_alg».proof.Proof.Dense
import proofs.«177218_j2456721293643_1_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input's and the result's row block is the point's number, every other
    block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input window's block at point t, at (p, k), is the input at row 5000·t + p. -/
theorem rows_block (c : Dev nD) (t : Fin cfg0.N) (y : S5000x128.Idx) (i : S100000x128.Idx)
    (h0 : (i 0).val = t.val * 5000 + (y 0).val) (h1 : (i 1).val = (y 1).val) :
    (iblk0 V c 0 t : Vec Ideal S5000x128 .f32) y = (V c main_v34 : Vec Ideal S100000x128 .f32) i := by
  obtain ⟨e0, e1, -⟩ := idx_facts t
  unfold iblk0
  rw [View.read_apply]
  show V c main_v34 _ = V c main_v34 _
  refine congrArg (V c main_v34) ?_
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weight window's block at every point is the whole weight. -/
theorem weight_block (c : Dev nD) (t : Fin cfg0.N) (y : S128x128.Idx) :
    (iblk0 V c 1 t : Vec Ideal S128x128 .f32) y = (V c main_arg1 : Vec Ideal S128x128 .f32) y := by
  obtain ⟨-, -, e0, e1, -⟩ := idx_facts t
  unfold iblk0
  rw [View.read_apply]
  show V c main_arg1 _ = V c main_arg1 _
  refine congrArg (V c main_arg1) ?_
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias window's block at every point is the whole bias row. -/
theorem bias_block (c : Dev nD) (t : Fin cfg0.N) (y : S1x128.Idx) :
    (iblk0 V c 2 t : Vec Ideal S1x128 .f32) y = (V c main_v35 : Vec Ideal S1x128 .f32) y := by
  obtain ⟨-, -, -, -, e0, e1, -⟩ := idx_facts t
  unfold iblk0
  rw [View.read_apply]
  show V c main_v35 _ = V c main_v35 _
  refine congrArg (V c main_v35) ?_
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- What point t writes back is block t of the layer of the arrays the region finds. -/
theorem flushed_eq (c : Dev nD) (t : Fin cfg0.N) :
    (dat0 V c).flushed 3 t
      = ((cfg0.win 3).blk t).view.read (Elt Ideal) (hidden (V c main_v34) (V c main_arg1) (V c main_v35)) := by
  have hN : cfg0.N = 20 := N_0
  have ht : t.val < 20 := hN ▸ t.isLt
  obtain ⟨-, -, -, -, -, -, e0, e1⟩ := idx_facts t
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have hp : p.val < 5000 := p.isLt
  have hr : t.val * 5000 + p.val < 100000 := by omega
  show k0_pay1 (F := Ideal) (iblk0 V c 0 t) (iblk0 V c 1 t) (iblk0 V c 2 t) (ix2 p q)
      = hidden (V c main_v34) (V c main_arg1) (V c main_v35) (((cfg0.win 3).blk t).view.emb (ix2 p q))
  refine (Dense.layer1_apply (iblk0 V c 0 t) (iblk0 V c 1 t) (iblk0 V c 2 t) p q).trans ?_
  have c0 : (((cfg0.win 3).blk t).view.emb (ix2 p q) : S100000x128.Idx) 0 = (⟨t.val * 5000 + p.val, hr⟩ : Fin 100000) :=
    Fin.ext (by show win0_3.index t (0 : Fin 2) * 5000 + 1 * p.val = t.val * 5000 + p.val; rw [e0]; omega)
  have c1 : (((cfg0.win 3).blk t).view.emb (ix2 p q) : S100000x128.Idx) 1 = q :=
    Fin.ext (by show win0_3.index t (1 : Fin 2) * 128 + 1 * q.val = q.val; rw [e1]; omega)
  unfold Cert.Spec.hidden Cert.Spec.hiddenAt
  rw [c0, c1, bias_block V c t (ix2 (0 : Fin 1) q)]
  refine congrArg (fun s => max (s + _) _) ?_
  refine Finset.sum_congr rfl fun k _ => ?_
  rw [rows_block V c t (ix2 p k) (ix2 (⟨t.val * 5000 + p.val, hr⟩ : Fin 100000) k) rfl rfl, weight_block V c t (ix2 k q)]

/-- An index of the result is in point t's block iff its coordinates are in the block's ranges. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v36).slice (win0_3.rect t)).set ↔ _
  rw [View.set_slice_whole, Rect.mem_set_unit]
  exact Iff.rfl

/-- Row r of the result is in the block of point r / 5000. -/
theorem cover (i : S100000x128.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 128 := (i 1).isLt
  refine ⟨⟨(i 0).val / 5000, by rw [hN]; omega⟩, flush0_3 _, ?_⟩
  obtain ⟨-, -, -, -, -, -, e0, e1⟩ := idx_facts ⟨(i 0).val / 5000, by rw [hN]; omega⟩
  rw [mem_blk]
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e1]; omega

/-- The result array after the region is the layer of the arrays the region found. -/
theorem final (c : Dev nD) :
    (dat0 V c).arrAt 3 cfg0.N = hidden (V c main_v34) (V c main_arg1) (V c main_v35) :=
  (dat0 V c).arrAt_eq_of_cover 3 (hidden (V c main_v34) (V c main_arg1) (V c main_v35))
    (fun t _ => flushed_eq V c t) cover

end Cert.KernelIdeal.Layer1

end
-- ==== Proof.Layer2.lean ====
/-
  The second pallas_call as one function of the arrays it finds. Its grid has 20 points; point t reads rows
  5000·t … 5000·t + 4999 of the two [100000,128] inputs (the nodes' features and their neighbourhood means), the two whole
  [128,64] weights and the whole [1,64] bias, and writes back rows 5000·t … 5000·t + 4999 of the result. Entry (r, q) of
  what a point writes depends on row r of the two inputs only:
  (∑ k, H (r, k) · Ws (k, q) + ∑ k, N (r, k) · Wn (k, q)) + b (0, q). So every point writes its block of ONE whole-array
  function, the 20 row blocks tile the result, and the result array ends holding that function.
-/
import proofs.«177218_j2456721293643_1_alg».proof.Proof.Gen.KernelIdeal.Frame
import proofs.«177218_j2456721293643_1_alg».proof.Proof.Dense
import proofs.«177218_j2456721293643_1_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two inputs' and the result's row block is the point's number, every
    other block index is zero. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The features window's block at point t, at (p, k), is the features array at row 5000·t + p. -/
theorem feat_block (c : Dev nD) (t : Fin cfg1.N) (y : S5000x128.Idx) (i : S100000x128.Idx)
    (h0 : (i 0).val = t.val * 5000 + (y 0).val) (h1 : (i 1).val = (y 1).val) :
    (iblk1 V c 0 t : Vec Ideal S5000x128 .f32) y = (V c main_v36 : Vec Ideal S100000x128 .f32) i := by
  obtain ⟨e0, e1, -⟩ := idx_facts t
  unfold iblk1
  rw [View.read_apply]
  show V c main_v36 _ = V c main_v36 _
  refine congrArg (V c main_v36) ?_
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The means window's block at point t, at (p, k), is the means array at row 5000·t + p. -/
theorem mean_block (c : Dev nD) (t : Fin cfg1.N) (y : S5000x128.Idx) (i : S100000x128.Idx)
    (h0 : (i 0).val = t.val * 5000 + (y 0).val) (h1 : (i 1).val = (y 1).val) :
    (iblk1 V c 1 t : Vec Ideal S5000x128 .f32) y = (V c main_v51 : Vec Ideal S100000x128 .f32) i := by
  obtain ⟨-, -, e0, e1, -⟩ := idx_facts t
  unfold iblk1
  rw [View.read_apply]
  show V c main_v51 _ = V c main_v51 _
  refine congrArg (V c main_v51) ?_
  funext a
  apply Fin.ext
  match a with
  | ⟨0, _⟩ => show win1_1.index t (0 : Fin 2) * 5000 + 1 * (y 0).val = (i 0).val; rw [e0, h0]; omega
  | ⟨1, _⟩ => show win1_1.index t (1 : Fin 2) * 128 + 1 * (y 1).val = (i 1).val; rw [e1, h1]; omega

/-- The first weight window's block at every point is the whole weight. -/
theorem wself_block (c : Dev nD) (t : Fin cfg1.N) (y : S128x64.Idx) :
    (iblk1 V c 2 t : Vec Ideal S128x64 .f32) y = (V c main_arg3 : Vec Ideal S128x64 .f32) y := by
  obtain ⟨-, -, -, -, e0, e1, -⟩ := idx_facts t
  unfold iblk1
  rw [View.read_apply]
  show V c main_arg3 _ = V c main_arg3 _
  refine congrArg (V c main_arg3) ?_
  funext a
  apply Fin.ext
  match a with
  | ⟨0, _⟩ => show win1_2.index t (0 : Fin 2) * 128 + 1 * (y 0).val = (y 0).val; rw [e0]; omega
  | ⟨1, _⟩ => show win1_2.index t (1 : Fin 2) * 64 + 1 * (y 1).val = (y 1).val; rw [e1]; omega

/-- The second weight window's block at every point is the whole weight. -/
theorem wneigh_block (c : Dev nD) (t : Fin cfg1.N) (y : S128x64.Idx) :
    (iblk1 V c 3 t : Vec Ideal S128x64 .f32) y = (V c main_arg4 : Vec Ideal S128x64 .f32) y := by
  obtain ⟨-, -, -, -, -, -, e0, e1, -⟩ := idx_facts t
  unfold iblk1
  rw [View.read_apply]
  show V c main_arg4 _ = V c main_arg4 _
  refine congrArg (V c main_arg4) ?_
  funext a
  apply Fin.ext
  match a with
  | ⟨0, _⟩ => show win1_3.index t (0 : Fin 2) * 128 + 1 * (y 0).val = (y 0).val; rw [e0]; omega
  | ⟨1, _⟩ => show win1_3.index t (1 : Fin 2) * 64 + 1 * (y 1).val = (y 1).val; rw [e1]; omega

/-- The bias window's block at every point is the whole bias row. -/
theorem bias_block (c : Dev nD) (t : Fin cfg1.N) (y : S1x64.Idx) :
    (iblk1 V c 4 t : Vec Ideal S1x64 .f32) y = (V c main_v52 : Vec Ideal S1x64 .f32) y := by
  obtain ⟨-, -, -, -, -, -, -, -, e0, e1, -⟩ := idx_facts t
  unfold iblk1
  rw [View.read_apply]
  show V c main_v52 _ = V c main_v52 _
  refine congrArg (V c main_v52) ?_
  funext a
  apply Fin.ext
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-- What point t writes back is block t of the combination of the arrays the region finds. -/
theorem flushed_eq (c : Dev nD) (t : Fin cfg1.N) :
    (dat1 V c).flushed 5 t
      = ((cfg1.win 5).blk t).view.read (Elt Ideal)
          (combine (V c main_v36) (V c main_v51) (V c main_arg3) (V c main_arg4) (V c main_v52)) := by
  have hN : cfg1.N = 20 := N_1
  have ht : t.val < 20 := hN ▸ t.isLt
  obtain ⟨-, -, -, -, -, -, -, -, -, -, e0, e1⟩ := idx_facts t
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  funext j
  obtain ⟨p, q, rfl⟩ : ∃ (p : Fin 5000) (q : Fin 64), j = ix2 p q := ⟨j 0, j 1, eq_ix2 j⟩
  have hp : p.val < 5000 := p.isLt
  have hr : t.val * 5000 + p.val < 100000 := by omega
  show k1_pay1 (F := Ideal) (iblk1 V c 0 t) (iblk1 V c 1 t) (iblk1 V c 2 t) (iblk1 V c 3 t) (iblk1 V c 4 t) (ix2 p q)
      = combine (V c main_v36) (V c main_v51) (V c main_arg3) (V c main_arg4) (V c main_v52) (((cfg1.win 5).blk t).view.emb (ix2 p q))
  refine (Dense.layer2_apply (iblk1 V c 0 t) (iblk1 V c 1 t) (iblk1 V c 2 t) (iblk1 V c 3 t) (iblk1 V c 4 t) p q).trans ?_
  have c0 : (((cfg1.win 5).blk t).view.emb (ix2 p q) : S100000x64.Idx) 0 = (⟨t.val * 5000 + p.val, hr⟩ : Fin 100000) :=
    Fin.ext (by show win1_5.index t (0 : Fin 2) * 5000 + 1 * p.val = t.val * 5000 + p.val; rw [e0]; omega)
  have c1 : (((cfg1.win 5).blk t).view.emb (ix2 p q) : S100000x64.Idx) 1 = q :=
    Fin.ext (by show win1_5.index t (1 : Fin 2) * 64 + 1 * q.val = q.val; rw [e1]; omega)
  unfold combine combineAt
  rw [c0, c1, bias_block V c t (ix2 (0 : Fin 1) q)]
  refine congrArg (fun s => s + _) ?_
  refine congrArg₂ (fun s s' => s + s') ?_ ?_
  · refine Finset.sum_congr rfl fun k _ => ?_
    rw [feat_block V c t (ix2 p k) (ix2 (⟨t.val * 5000 + p.val, hr⟩ : Fin 100000) k) rfl rfl, wself_block V c t (ix2 k q)]
  · refine Finset.sum_congr rfl fun k _ => ?_
    rw [mean_block V c t (ix2 p k) (ix2 (⟨t.val * 5000 + p.val, hr⟩ : Fin 100000) k) rfl rfl, wneigh_block V c t (ix2 k q)]

/-- An index of the result is in point t's block iff its coordinates are in the block's ranges. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v53).slice (win1_5.rect t)).set ↔ _
  rw [View.set_slice_whole, Rect.mem_set_unit]
  exact Iff.rfl

/-- Row r of the result is in the block of point r / 5000. -/
theorem cover (i : S100000x64.Idx) :
    ∃ t : Fin cfg1.N, (cfg1.win 5).flush t = true ∧ i ∈ ((cfg1.win 5).blk t).view.set := by
  have hN : cfg1.N = 20 := N_1
  have hi0 : (i 0).val < 100000 := (i 0).isLt
  have hi1 : (i 1).val < 64 := (i 1).isLt
  refine ⟨⟨(i 0).val / 5000, by rw [hN]; omega⟩, flush1_5 _, ?_⟩
  obtain ⟨-, -, -, -, -, -, -, -, -, -, e0, e1⟩ := idx_facts ⟨(i 0).val / 5000, by rw [hN]; omega⟩
  rw [mem_blk]
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 64 ≤ (i 1).val ∧ (i 1).val < win1_5.index _ (1 : Fin 2) * 64 + 64
    rw [e1]; omega

/-- The result array after the region is the combination of the arrays the region found. -/
theorem final (c : Dev nD) :
    (dat1 V c).arrAt 5 cfg1.N = combine (V c main_v36) (V c main_v51) (V c main_arg3) (V c main_arg4) (V c main_v52) :=
  (dat1 V c).arrAt_eq_of_cover 5 (combine (V c main_v36) (V c main_v51) (V c main_arg3) (V c main_arg4) (V c main_v52))
    (fun t _ => flushed_eq V c t) cover

end Cert.KernelIdeal.Layer2

end
-- ==== Proof.RefMean.lean ====
/-
  The neighbourhood mean as a function of the features it averages. Given node features `h`, the in-degrees `deg`, and
  the edges' source and destination indices, the reference gathers the source node's row for every edge (a negative
  index counted from the end), adds the gathered rows into their destination rows starting from zero, and divides
  row r by max (deg r) 1. Naming this stretch as one function of `h` lets both programs' means be compared by
  comparing the features going in, without opening the gather or the scatter-add.
-/
import proofs.«177218_j2456721293643_1_alg».proof.Proof.RefRead

noncomputable section

open Idealize.ShloMosaic

namespace Cert.ReferenceIdeal.Stages

open Cert.ReferenceIdeal Cert.ReferenceIdeal.Gen Cert.ReferenceIdeal.ReadP

variable {F : FTy → Type} [FloatOps F]

/-- The mean over each node's in-edges of the source nodes' rows of `h`; a node with no in-edge gets the zero row. -/
def neighMean (h : (⟨S100000x128, .f32⟩ : BufTy).Contents (Elt F)) (deg : (⟨S100000, .f32⟩ : BufTy).Contents (Elt F))
    (x6 x7 : (⟨S1600000, .i32⟩ : BufTy).Contents (Elt F)) : (⟨S100000x128, .f32⟩ : BufTy).Contents (Elt F) :=
  Host.divf
    (Host.scatterAdd scatter_S100000x128_S1600000x1_S1600000x128_1_0_0_1 (val_main_v47 (F := F)) (val_main_v48 (F := F) x7)
      (Host.gather gather_S100000x128_S1600000x1_S1600000x128_1_0_n_n_0_1_1128 h (val_main_v45 (F := F) x6)))
    (broadcastInDim S100000x128 ![0, 1] bcast_S100000x1_S100000x128_0_1
      (broadcastInDim S100000x1 ![0] bcast_S100000_S100000x1_0 (maximumf deg (val_main_v50 (F := F)))))

/-- The reference's neighbourhood means are that function of its hidden features and its in-degrees. -/
theorem mean_stage (x0 : (⟨S100000x128, .f32⟩ : BufTy).Contents (Elt F)) (x1 : (⟨S128x128, .f32⟩ : BufTy).Contents (Elt F))
    (x2 : (⟨S128, .f32⟩ : BufTy).Contents (Elt F)) (x6 x7 : (⟨S1600000, .i32⟩ : BufTy).Contents (Elt F)) :
    val_main_v54 (F := F) x0 x1 x2 x6 x7
      = neighMean (val_main_v39 (F := F) x0 x1 x2 x6 x7) (val_main_v6 (F := F) x7) x6 x7 := rfl

end Cert.ReferenceIdeal.Stages

end
-- ==== Proof.HostChains.lean ====
/-
  What the host operations around the two pallas_calls leave in the buffers the calls read, on the kernel's side,
  named by the reference's own stages. Before the first call the kernel's host operations are the reference's, one for
  one: the degrees by scatter-add of ones, their inverse square roots where positive, the features scaled by the
  source's factor, gathered along the edges, added into their destinations and scaled by the destination's factor. So the
  first call finds the reference's normalised aggregate, the first weight as launched, and the first bias as a one-row
  matrix. Between the calls the kernel's host operations are again the reference's: they make the neighbourhood means
  of whatever features the first call left. Every argument array is read back unchanged through each stretch.
-/
import proofs.«177218_j2456721293643_1_alg».proof.Proof.Gen.KernelIdeal.Frame
import proofs.«177218_j2456721293643_1_alg».proof.Proof.RefMean
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen

variable {F : FTy → Type} [FloatOps F]
variable (m : (ℓ : Loc nD τ sig) → Buf (Elt F) ℓ) (ρ : Dev nD → PrngReg)

/-- The buffer contents on entering the first call, as the fold of the five stretches before it. -/
theorem entry1_eq (c : Dev nD) (b : Ref sig .tc) :
    V5 m ρ c b = StableHlo.after hostOps0_4 (StableHlo.after hostOps0_3 (StableHlo.after hostOps0_2
      (StableHlo.after hostOps0_1 (StableHlo.after hostOps0 (W0 m ρ c))))) (Proc.devRef .tc b) := rfl

set_option maxHeartbeats 4000000 in
/-- The first call's row input is the reference's normalised aggregate of the launched arrays. -/
theorem agg_entry (c : Dev nD) :
    V5 m ρ c main_v34 = Cert.ReferenceIdeal.ReadP.val_main_v34 (F := F) (m ((c : Thread nD τ).loc main_arg0)) (m ((c : Thread nD τ).loc main_arg6)) (m ((c : Thread nD τ).loc main_arg7)) := by
  rw [entry1_eq]
  simp only [hostOps0, hostOps0_1, hostOps0_2, hostOps0_3, hostOps0_4]
  after_results_simp <;> rfl

set_option maxHeartbeats 4000000 in
/-- The in-degrees, made before the first call, are the reference's. -/
theorem deg_entry (c : Dev nD) :
    V5 m ρ c main_v6 = Cert.ReferenceIdeal.ReadP.val_main_v6 (F := F) (m ((c : Thread nD τ).loc main_arg7)) := by
  rw [entry1_eq]
  simp only [hostOps0, hostOps0_1, hostOps0_2, hostOps0_3, hostOps0_4]
  after_results_simp <;> rfl

set_option maxHeartbeats 4000000 in
/-- The first call's bias input is the launched bias vector as a one-row matrix. -/
theorem bias1_entry (c : Dev nD) :
    V5 m ρ c main_v35 = shapeCast S1x128 (m ((c : Thread nD τ).loc main_arg2)) shapeCasts_S128_S1x128 := by
  rw [entry1_eq]
  simp only [hostOps0, hostOps0_1, hostOps0_2, hostOps0_3, hostOps0_4]
  after_results_simp <;> rfl

set_option maxHeartbeats 4000000 in
/-- The first call's weight input is the first weight as launched: no host operation before the call writes it. -/
theorem weight1_entry (c : Dev nD) :
    V5 m ρ c main_arg1 = (m ((c : Thread nD τ).loc main_arg1)) := by
  rw [entry1_eq]
  simp only [hostOps0, hostOps0_1, hostOps0_2, hostOps0_3, hostOps0_4]
  after_results_simp <;> rfl

set_option maxHeartbeats 4000000 in
/-- The edges' source indices are as launched on entering the first call. -/
theorem src_entry (c : Dev nD) :
    V5 m ρ c main_arg6 = (m ((c : Thread nD τ).loc main_arg6)) := by
  rw [entry1_eq]
  simp only [hostOps0, hostOps0_1, hostOps0_2, hostOps0_3, hostOps0_4]
  after_results_simp <;> rfl

set_option maxHeartbeats 4000000 in
/-- The edges' destination indices are as launched on entering the first call. -/
theorem dst_entry (c : Dev nD) :
    V5 m ρ c main_arg7 = (m ((c : Thread nD τ).loc main_arg7)) := by
  rw [entry1_eq]
  simp only [hostOps0, hostOps0_1, hostOps0_2, hostOps0_3, hostOps0_4]
  after_results_simp <;> rfl

set_option maxHeartbeats 4000000 in
/-- The weight applied to a node's own features is as launched on entering the first call. -/
theorem wself_entry1 (c : Dev nD) :
    V5 m ρ c main_arg3 = (m ((c : Thread nD τ).loc main_arg3)) := by
  rw [entry1_eq]
  simp only [hostOps0, hostOps0_1, hostOps0_2, hostOps0_3, hostOps0_4]
  after_results_simp <;> rfl

set_option maxHeartbeats 4000000 in
/-- The weight applied to the neighbourhood means is as launched on entering the first call. -/
theorem wneigh_entry1 (c : Dev nD) :
    V5 m ρ c main_arg4 = (m ((c : Thread nD τ).loc main_arg4)) := by
  rw [entry1_eq]
  simp only [hostOps0, hostOps0_1, hostOps0_2, hostOps0_3, hostOps0_4]
  after_results_simp <;> rfl

set_option maxHeartbeats 4000000 in
/-- The second bias vector is as launched on entering the first call. -/
theorem bias2_entry1 (c : Dev nD) :
    V5 m ρ c main_arg5 = (m ((c : Thread nD τ).loc main_arg5)) := by
  rw [entry1_eq]
  simp only [hostOps0, hostOps0_1, hostOps0_2, hostOps0_3, hostOps0_4]
  after_results_simp <;> rfl

/-- The buffer contents on entering the second call: the stretch between the calls over what the first call left. -/
theorem entry2_eq (c : Dev nD) (b : Ref sig .tc) :
    V7 m ρ c b = StableHlo.after hostOps1 (W6 m ρ c) (Proc.devRef .tc b) := rfl

set_option maxHeartbeats 4000000 in
/-- The second call's second row input is the neighbourhood mean of the features the first call left, over the
    degrees and the edge indices as the first call left them. -/
theorem mean_entry (c : Dev nD) :
    V7 m ρ c main_v51 = Cert.ReferenceIdeal.Stages.neighMean (F := F) (W6 m ρ c (Proc.devRef .tc main_v36))
      (W6 m ρ c (Proc.devRef .tc main_v6)) (W6 m ρ c (Proc.devRef .tc main_arg6)) (W6 m ρ c (Proc.devRef .tc main_arg7)) := by
  rw [entry2_eq]
  simp only [hostOps1]
  after_results_simp <;> rfl

set_option maxHeartbeats 4000000 in
/-- The second call's first row input is the features the first call left: the stretch between does not write them. -/
theorem feat_entry (c : Dev nD) : V7 m ρ c main_v36 = W6 m ρ c (Proc.devRef .tc main_v36) := by
  rw [entry2_eq]
  simp only [hostOps1]
  after_results_simp <;> rfl

set_option maxHeartbeats 4000000 in
/-- The second call's bias input is the second bias vector as a one-row matrix. -/
theorem bias2_entry (c : Dev nD) :
    V7 m ρ c main_v52 = shapeCast S1x64 (W6 m ρ c (Proc.devRef .tc main_arg5)) shapeCasts_S64_S1x64 := by
  rw [entry2_eq]
  simp only [hostOps1]
  after_results_simp <;> rfl

set_option maxHeartbeats 4000000 in
/-- The second call's first weight input is what the first call left at that weight's buffer. -/
theorem wself_entry (c : Dev nD) : V7 m ρ c main_arg3 = W6 m ρ c (Proc.devRef .tc main_arg3) := by
  rw [entry2_eq]
  simp only [hostOps1]
  after_results_simp <;> rfl

set_option maxHeartbeats 4000000 in
/-- The second call's second weight input is what the first call left at that weight's buffer. -/
theorem wneigh_entry (c : Dev nD) : V7 m ρ c main_arg4 = W6 m ρ c (Proc.devRef .tc main_arg4) := by
  rw [entry2_eq]
  simp only [hostOps1]
  after_results_simp <;> rfl

/-- A buffer that is none of the first call's four arrays leaves the call as it entered. -/
theorem across1 (c : Dev nD) (b : Ref sig .tc) (hb : ∀ w, Pipeline.arrRef spec0 w ≠ b) :
    W6 m ρ c (Proc.devRef .tc b) = V5 m ρ c b := W6_of_ne m ρ c b hb

end Cert.KernelIdeal.Host

end
-- ==== Proof.RefStages.lean ====
/-
  The reference's two dense stages are the functions `hidden` and `combine` of the stages before them.
  Its hidden features are a dot product with the first weight, the bias broadcast over the rows, and a maximum with
  zero: entry (r, q) is max (∑ k, A (r, k) · W1 (k, q) + b1 q) 0 with A the normalised aggregate.
  Its result is two dot products added, then the bias broadcast over the rows:
  entry (r, q) is (∑ k, H (r, k) · Ws (k, q) + ∑ k, N (r, k) · Wn (k, q)) + b2 q.
  A bias vector read as a one-row matrix is the same numbers, which is how the kernel side carries it.
-/
import proofs.«177218_j2456721293643_1_alg».proof.Proof.RefRead
import proofs.«177218_j2456721293643_1_alg».proof.Proof.Spec
import Idealize.ShloMosaic.Lib.ValueLayout

noncomputable section

open Idealize.ShloMosaic Idealize.ShloMosaic.ValueIdx

namespace Cert.ReferenceIdeal.Stages

open Cert.ReferenceIdeal Cert.ReferenceIdeal.ReadP

/-- The reference's hidden features are the rectified dense layer of its normalised aggregate. -/
theorem hidden_stage (x0 : (⟨S100000x128, .f32⟩ : BufTy).Contents (Elt Ideal)) (x1 : (⟨S128x128, .f32⟩ : BufTy).Contents (Elt Ideal))
    (x2 : (⟨S128, .f32⟩ : BufTy).Contents (Elt Ideal)) (x6 x7 : (⟨S1600000, .i32⟩ : BufTy).Contents (Elt Ideal))
    (h : (⟨1, ![128]⟩ : Shape).ShapeCasts ⟨2, ![1, 128]⟩) :
    val_main_v39 (F := Ideal) x0 x1 x2 x6 x7
      = Cert.Spec.hidden (val_main_v34 (F := Ideal) x0 x6 x7) x1 (shapeCast ⟨2, ![1, 128]⟩ x2 h) := by
  funext i
  obtain ⟨r, q, rfl⟩ : ∃ (r : Fin 100000) (q : Fin 128), i = ix2 r q := ⟨i 0, i 1, eq_ix2 i⟩
  rw [val_main_v39_apply, val_main_v38_apply, val_main_v35_apply, val_main_v37_apply, val_main_v36_apply,
    val_main_call2_v0_apply, val_main_call2_cst_apply]
  have el : ∀ k : Fin 128, lidx_main_v35 (ix2 r q) k = ix2 r k := fun k => funext fun a => Fin.ext (by
    match a with | ⟨0, _⟩ => rfl | ⟨1, _⟩ => rfl)
  have er : ∀ k : Fin 128, ridx_main_v35 (ix2 r q) k = ix2 k q := fun k => funext fun a => Fin.ext (by
    match a with | ⟨0, _⟩ => rfl | ⟨1, _⟩ => rfl)
  have eb : idx_main_v36 (idx_main_v37 (ix2 r q)) = ix1 q := funext fun a => Fin.ext (by
    match a with | ⟨0, _⟩ => rfl)
  simp only [el, er, eb]
  show _ = Cert.Spec.hiddenAt _ _ _ r q
  unfold Cert.Spec.hiddenAt
  rw [shapeCast_a_1a_apply]
  rfl

/-- The reference's result is the combination of its hidden features and its neighbourhood means. -/
theorem combine_stage (x0 : (⟨S100000x128, .f32⟩ : BufTy).Contents (Elt Ideal)) (x1 : (⟨S128x128, .f32⟩ : BufTy).Contents (Elt Ideal))
    (x2 : (⟨S128, .f32⟩ : BufTy).Contents (Elt Ideal)) (x3 x4 : (⟨S128x64, .f32⟩ : BufTy).Contents (Elt Ideal))
    (x5 : (⟨S64, .f32⟩ : BufTy).Contents (Elt Ideal)) (x6 x7 : (⟨S1600000, .i32⟩ : BufTy).Contents (Elt Ideal))
    (h : (⟨1, ![64]⟩ : Shape).ShapeCasts ⟨2, ![1, 64]⟩) :
    val_main_v60 (F := Ideal) x0 x1 x2 x3 x4 x5 x6 x7
      = Cert.Spec.combine (val_main_v39 (F := Ideal) x0 x1 x2 x6 x7) (val_main_v54 (F := Ideal) x0 x1 x2 x6 x7) x3 x4
          (shapeCast ⟨2, ![1, 64]⟩ x5 h) := by
  funext i
  obtain ⟨r, q, rfl⟩ : ∃ (r : Fin 100000) (q : Fin 64), i = ix2 r q := ⟨i 0, i 1, eq_ix2 i⟩
  rw [val_main_v60_apply, val_main_v57_apply, val_main_v55_apply, val_main_v56_apply, val_main_v59_apply, val_main_v58_apply]
  have el : ∀ k : Fin 128, lidx_main_v55 (ix2 r q) k = ix2 r k := fun k => funext fun a => Fin.ext (by
    match a with | ⟨0, _⟩ => rfl | ⟨1, _⟩ => rfl)
  have er : ∀ k : Fin 128, ridx_main_v55 (ix2 r q) k = ix2 k q := fun k => funext fun a => Fin.ext (by
    match a with | ⟨0, _⟩ => rfl | ⟨1, _⟩ => rfl)
  have el' : ∀ k : Fin 128, lidx_main_v56 (ix2 r q) k = ix2 r k := fun k => funext fun a => Fin.ext (by
    match a with | ⟨0, _⟩ => rfl | ⟨1, _⟩ => rfl)
  have er' : ∀ k : Fin 128, ridx_main_v56 (ix2 r q) k = ix2 k q := fun k => funext fun a => Fin.ext (by
    match a with | ⟨0, _⟩ => rfl | ⟨1, _⟩ => rfl)
  have eb : idx_main_v58 (idx_main_v59 (ix2 r q)) = ix1 q := funext fun a => Fin.ext (by
    match a with | ⟨0, _⟩ => rfl)
  simp only [el, er, el', er', eb]
  show _ = Cert.Spec.combineAt _ _ _ _ _ r q
  unfold Cert.Spec.combineAt
  rw [shapeCast_a_1a_apply]
  rfl

end Cert.ReferenceIdeal.Stages

end
-- ==== Proof.KernelValue.lean ====
/-
  The kernel program's result as the reference's own last stage of the launched arrays, over the extended reals.
  The first call finds the reference's normalised aggregate, the first weight and the first bias row, so it leaves the
  rectified dense layer of them, which is the reference's hidden features. The stretch between the calls makes the
  neighbourhood means of those features, as the reference does. The second call finds the hidden features, their
  neighbourhood means, the two weights and the second bias row, so it leaves their combination, which is the reference's
  result. The program's run then ends with the result array at that value and the arguments as launched.
-/
import proofs.«177218_j2456721293643_1_alg».proof.Proof.KernelRun
import proofs.«177218_j2456721293643_1_alg».proof.Proof.Layer1
import proofs.«177218_j2456721293643_1_alg».proof.Proof.Layer2
import proofs.«177218_j2456721293643_1_alg».proof.Proof.HostChains
import proofs.«177218_j2456721293643_1_alg».proof.Proof.RefStages

set_option maxRecDepth 16384

noncomputable section

open Idealize.ShloMosaic Idealize.ShloMosaic.TcCoe Idealize.SL.Sem

namespace Cert.KernelIdeal.Result

open Cert.KernelIdeal Cert.KernelIdeal.Gen

variable (m : (ℓ : Loc nD τ sig) → Buf (Elt Ideal) ℓ) (ρ : Dev nD → PrngReg)

/-- The reference's result stage of the kernel program's launched arrays. -/
abbrev out (c : Dev nD) : (⟨Cert.ReferenceIdeal.S100000x64, .f32⟩ : BufTy).Contents (Elt Ideal) :=
  Cert.ReferenceIdeal.ReadP.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The first call leaves the reference's hidden features of the launched arrays. -/
theorem hidden_exit (c : Dev nD) :
    W6 m ρ c (Proc.devRef .tc main_v36)
      = Cert.ReferenceIdeal.ReadP.val_main_v39 (F := Ideal) (m ((c : Thread nD τ).loc main_arg0)) (m ((c : Thread nD τ).loc main_arg1)) (m ((c : Thread nD τ).loc main_arg2)) (m ((c : Thread nD τ).loc main_arg6)) (m ((c : Thread nD τ).loc main_arg7)) := by
  have e1 := Host.agg_entry m ρ c
  have e2 := Host.weight1_entry m ρ c
  have e3 := Host.bias1_entry m ρ c
  refine (W6_arr m ρ c 3).trans ?_
  refine (Layer1.final (V5 m ρ) c).trans ?_
  rw [e1, e2, e3]
  exact (Cert.ReferenceIdeal.Stages.hidden_stage _ _ _ _ _ _).symm

/-- The second call leaves the reference's result of the launched arrays. -/
theorem result_eq (c : Dev nD) : W8 m ρ c (Proc.devRef .tc main_v53) = out m c := by
  have f1 := Host.feat_entry m ρ c
  have f2 := Host.mean_entry m ρ c
  have f3 := Host.wself_entry m ρ c
  have f4 := Host.wneigh_entry m ρ c
  have f5 := Host.bias2_entry m ρ c
  refine (W8_arr m ρ c 5).trans ?_
  refine (Layer2.final (V7 m ρ) c).trans ?_
  rw [f1, f2, f3, f4, f5, hidden_exit m ρ c,
    Host.across1 m ρ c main_v6 (by decide), Host.across1 m ρ c main_arg6 (by decide), Host.across1 m ρ c main_arg7 (by decide),
    Host.across1 m ρ c main_arg3 (by decide), Host.across1 m ρ c main_arg4 (by decide), Host.across1 m ρ c main_arg5 (by decide),
    Host.deg_entry m ρ c, Host.src_entry m ρ c, Host.dst_entry m ρ c,
    Host.wself_entry1 m ρ c, Host.wneigh_entry1 m ρ c, Host.bias2_entry1 m ρ c,
    ← Cert.ReferenceIdeal.Stages.mean_stage]
  exact (Cert.ReferenceIdeal.Stages.combine_stage _ _ _ _ _ _ _ _ _).symm

/-- Every weakly fair execution of the kernel program ends with the result array at the reference's result stage of
    the launched arrays, and the arguments as launched. -/
theorem run : θ_run defs (onTc (τ := τ) (main (F := Ideal))) ⟨m, fun _ => 0, ρ⟩ (fun r => ∀ c : Dev nD,
      r.2.mem ((c.tc : Thread nD τ).loc main_v53) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.GenP.run_named m ρ)

end Cert.KernelIdeal.Result

end
-- ==== Proof.lean ====
/-
  A two-layer graph network on 100000 nodes and 1600000 edges. Both programs compute, on the host, the degrees, the
  symmetric normalisation, and the two edge gathers with their scatter-adds; they differ in the two dense stages. The
  kernel program runs each dense stage as a row-tiled call (20 tiles of 5000 rows) on operands narrowed before each
  product; the reference runs them as whole dot products. Over the extended reals narrowing is the identity and a tile of
  a row-wise function is that function on the tile's rows, so the first call leaves the reference's hidden features
  max (A·W1 + b1) 0, the host stretch between the calls makes the same neighbourhood means from them, and the second call
  leaves the reference's result H·Ws + N·Wn + b2. No law of arithmetic beyond equality of the same sums is used, so the
  finiteness of the inputs is never opened. The three programs' runs terminate with their arguments unchanged; the
  idealisation rewrote nothing, so its conjunct is trivial.
-/
import proofs.«177218_j2456721293643_1_alg».proof.Defs
import proofs.«177218_j2456721293643_1_alg».proof.Proof.Gen.Kernel
import proofs.«177218_j2456721293643_1_alg».proof.Proof.Gen.Kernel.Frame
import proofs.«177218_j2456721293643_1_alg».proof.Proof.Gen.KernelIdeal
import proofs.«177218_j2456721293643_1_alg».proof.Proof.Gen.KernelIdeal.Frame
import proofs.«177218_j2456721293643_1_alg».proof.Proof.Gen.ReferenceIdeal
import proofs.«177218_j2456721293643_1_alg».proof.Proof.Gen.Pre_finite_inputs
import proofs.«177218_j2456721293643_1_alg».proof.Proof.RefRun
import proofs.«177218_j2456721293643_1_alg».proof.Proof.RefRead
import proofs.«177218_j2456721293643_1_alg».proof.Proof.KernelValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernel_ideal : Cert.frame_KernelIdeal := fun m ρ _ => Cert.KernelIdeal.Gen.frame m ρ

/-- The idealized reference runs and keeps its arguments: its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the result array at the reference's last stage
    of those arguments. -/
theorem algebraic : Cert.algebraic_KernelIdeal_ReferenceIdeal := by
  intro m ρ m' ρ' _ hagree
  refine ⟨fun c => Cert.KernelIdeal.Result.out m c, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v60_eq]
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
